-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1x512 : Shape := ⟨2, ![1, 512]⟩
abbrev S512x512 : Shape := ⟨2, ![512, 512]⟩
abbrev S512x4x128 : Shape := ⟨3, ![512, 4, 128]⟩
abbrev S512x4 : Shape := ⟨2, ![512, 4]⟩
abbrev S512x4x1 : Shape := ⟨3, ![512, 4, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  shapeCasts_S512x512_S512x4x128 : S512x512.ShapeCasts S512x4x128
  reduces_S512x4x128_S512x4 : S512x4x128.Reduces [2] S512x4
  shapeCasts_S512x4_S512x4x1 : S512x4.ShapeCasts S512x4x1
  broadcasts_S512x4x1_S512x4x128 : S512x4x1.Broadcasts S512x4x128
  shapeCasts_S512x4x128_S512x512 : S512x4x128.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x4096.size a
  hwx0_3 : ∀ i : grid0.Coords, EltTy.bits .f32 = 32 ∨ (Rect.block (s := S8192x4096) S512x512.size (cc0_transform_3 i) (hinb0_3 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S1x4096 : Shape := ⟨2, ![1, 4096]⟩

abbrev nBuf : Space → Nat
  | .hbm => 48
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x32x128, .f32⟩
  | .hbm, ⟨5, _⟩ => ⟨S_, .f32⟩
  | .hbm, ⟨6, _⟩ => ⟨S8192x32, .f32⟩
  | .hbm, ⟨7, _⟩ => ⟨S8192x32x1, .f32⟩
  | .hbm, ⟨8, _⟩ => ⟨S_, .f32⟩
  | .hbm, ⟨9, _⟩ => ⟨S8192x32x1, .f32⟩
  | .hbm, ⟨10, _⟩ => ⟨S8192x32x1, .f32⟩
  | .hbm, ⟨11, _⟩ => ⟨S8192x32x128, .f32⟩
  | .hbm, ⟨12, _⟩ => ⟨S8192x32x128, .f32⟩
  | .hbm, ⟨13, _⟩ => ⟨S8192x32x128, .f32⟩
  | .hbm, ⟨14, _⟩ => ⟨S_, .f32⟩
  | .hbm, ⟨15, _⟩ => ⟨S8192x32, .f32⟩
  | .hbm, ⟨16, _⟩ => ⟨S8192x32x1, .f32⟩
  | .hbm, ⟨17, _⟩ => ⟨S_, .f32⟩
  | .hbm, ⟨18, _⟩ => ⟨S8192x32x1, .f32⟩
  | .hbm, ⟨19, _⟩ => ⟨S8192x32x1, .f32⟩
  | .hbm, ⟨20, _⟩ => ⟨S8192x32x128, .f32⟩
  | .hbm, ⟨21, _⟩ => ⟨S8192x32x128, .f32⟩
  | .hbm, ⟨22, _⟩ => ⟨S_, .f32⟩
  | .hbm, ⟨23, _⟩ => ⟨S8192x32x1, .f32⟩
  | .hbm, ⟨24, _⟩ => ⟨S8192x32x1, .f32⟩
  | .hbm, ⟨25, _⟩ => ⟨S8192x32x1, .f32⟩
  | .hbm, ⟨26, _⟩ => ⟨S8192x32x128, .f32⟩
  | .hbm, ⟨27, _⟩ => ⟨S8192x32x128, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S_, .f32⟩
  | .hbm, ⟨46, _⟩ => ⟨S8192x4096, .f32⟩
  | .hbm, ⟨47, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_cst_5 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v24 : Ref sig .tc := ⟨.hbm, 39, rfl⟩
abbrev main_cst_6 : Ref sig .tc := ⟨.hbm, 40, rfl⟩
abbrev main_cst_7 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v25 : Ref sig .tc := ⟨.hbm, 47, rfl⟩

abbrev nD : Nat := 1
abbrev τ : Topo := Topo.v7x

variable {F : FTy → Type} [FloatOps F]

class Facts₀ : Prop where
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  shapeCasts_S8192x32x128_S8192x4096 : S8192x32x128.ShapeCasts S8192x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one call of the kernel body leaves behind, as the body's own arithmetic.

  The accumulator is a 512 × 512 scratch block. At the first reduction step it is zeroed and the first partial product is
  added; at every later step the step's partial product is added to what the step before left; at the last step the
  output block is, besides, the normalized and clipped accumulator.
-/
import proofs.«120071_j88940182766069_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

/-- Every store and load of the body is at offset zero of its buffer. -/
theorem hz : (![0, 0] : Fin 2 → ℕ) = fun _ => 0 := funext fun a => by fin_cases a <;> rfl

/-- A later reduction step leaves the accumulator plus the step's partial product. -/
theorem scratch_B (c : Dev nD) (i : grid0.Coords) (arg3 : Memref sig .tc .vmem S512x1024 .f32) (harg3 : arg3.IsWhole)
    (arg4 : Memref sig .tc .vmem S512x1024 .f32) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc0 : ¬cond0_0 i) (hc1 : ¬cond0_1 i)
    (x0 : Vec F S512x1024 .f32) (x1 : Vec F S512x1024 .f32) (x2 : Vec F S1x512 .f32) (xs0 : Vec F S512x512 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread,
    View.ld_unit_zero (S := S512x1024) hz, View.ld_unit_zero (S := S512x512) hz]

/-- The last reduction step leaves the same in the accumulator … -/
theorem scratch_C (c : Dev nD) (i : grid0.Coords) (arg3 : Memref sig .tc .vmem S512x1024 .f32) (harg3 : arg3.IsWhole)
    (arg4 : Memref sig .tc .vmem S512x1024 .f32) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc0 : ¬cond0_0 i) (hc1 : cond0_1 i)
    (x0 : Vec F S512x1024 .f32) (x1 : Vec F S512x1024 .f32) (x2 : Vec F S1x512 .f32) (xs0 : Vec F S512x512 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread,
    View.ld_unit_zero (S := S512x1024) hz, View.ld_unit_zero (S := S512x512) hz]

/-- … and in the output block the epilogue of that accumulator and the bias row. -/
theorem out_C (c : Dev nD) (i : grid0.Coords) (arg3 : Memref sig .tc .vmem S512x1024 .f32) (harg3 : arg3.IsWhole)
    (arg4 : Memref sig .tc .vmem S512x1024 .f32) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc0 : ¬cond0_0 i) (hc1 : cond0_1 i)
    (x0 : Vec F S512x1024 .f32) (x1 : Vec F S512x1024 .f32) (x2 : Vec F S1x512 .f32) (xs0 : Vec F S512x512 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readCov_unit_zero (S := S512x512) _ hz, View.readAt_eq_ld, harg3.read_unread, harg4.read_unread,
    harg5.read_unread, harg7.read_unread, View.ld_unit_zero (S := S512x1024) hz, View.ld_unit_zero (S := S512x512) hz,
    View.ld_unit_zero (S := S1x512) hz]

/-- The first reduction step zeroes the accumulator and adds the first partial product. -/
theorem scratch_A (c : Dev nD) (i : grid0.Coords) (arg3 : Memref sig .tc .vmem S512x1024 .f32) (harg3 : arg3.IsWhole)
    (arg4 : Memref sig .tc .vmem S512x1024 .f32) (harg4 : arg4.IsWhole) (arg5 : Memref sig .tc .vmem S1x512 .f32) (harg5 : arg5.IsWhole)
    (arg6 : Memref sig .tc .vmem S512x512 .f32) (harg6 : arg6.IsWhole) (arg7 : Memref sig .tc .vmem S512x512 .f32) (harg7 : arg7.IsWhole)
    (hc0 : cond0_0 i) (hc1 : ¬cond0_1 i)
    (x0 : Vec F S512x1024 .f32) (x1 : Vec F S512x1024 .f32) (x2 : Vec F S1x512 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x512) hz, View.readCov_unit_zero (S := S512x512) _ hz]
  simp only [View.readAt_eq_ld, harg3.read_unread, harg4.read_unread,
    View.ld_unit_zero (S := S512x1024) hz, View.ld_unit_zero (S := S512x512) hz]

end Cert.KernelIdeal.Pieces

end
-- ==== Proof.GroupNorm.lean ====
/-
  The function both programs compute, over the extended reals.

  A row of the linear map is cut into groups of 128 consecutive columns. Each group is normalized by its own mean and
  (biased) variance, a bias is added per column, and the result is clipped to [-2, 2]. The kernel multiplies the centred
  value by the reciprocal square root of (variance + eps); the reference divides it by the square root and clips twice.
  This file only fixes the vocabulary: one group as a function `Fin 128 → EReal`, the two spellings of its normalized
  entry, the linear map `y[r,s] = Σₖ x[r,k]·w[s,k]`, and the whole result array.
-/
import Idealize.ShloMosaic.PureOps.Ideal
import Idealize.ShloMosaic.Lib.ValueIdx

noncomputable section

open scoped BigOperators

namespace GroupNorm

open Idealize.ShloMosaic Idealize.ShloMosaic.ValueIdx

/-- The group size 128 as both programs write it. -/
abbrev c128 : EReal := Ideal.ofBits .f32 0x43000000#32
/-- The variance offset (the single-precision number nearest 1e-6), the same word in both programs. -/
abbrev eps : EReal := Ideal.ofBits .f32 0x358637BD#32
/-- The clip bounds -2 and 2. -/
abbrev lo : EReal := Ideal.ofBits .f32 0xC0000000#32
abbrev hi : EReal := Ideal.ofBits .f32 0x40000000#32

/-- The mean of a group. -/
def mean (v : Fin 128 → EReal) : EReal := Ideal.div (∑ l : Fin 128, v l) c128

/-- An entry of the group minus the group's mean. -/
def dev (v : Fin 128 → EReal) (l : Fin 128) : EReal := v l - mean v

/-- The biased variance of a group: the mean of the squared deviations. -/
def var (v : Fin 128 → EReal) : EReal := Ideal.div (∑ l : Fin 128, dev v l * dev v l) c128

/-- The kernel's spelling of a normalized, biased, clipped entry: deviation times the reciprocal square root. -/
def normK (v : Fin 128 → EReal) (β : EReal) (l : Fin 128) : EReal :=
  min hi (max lo (dev v l * Ideal.rsqrt (var v + eps) + β))

/-- The reference's spelling: deviation divided by the square root, clipped twice. -/
def normR (v : Fin 128 → EReal) (β : EReal) (l : Fin 128) : EReal :=
  min hi (max lo (min hi (max lo (Ideal.div (dev v l) (Ideal.sqrt (var v + eps)) + β))))

/-- The linear map: entry (r, s) is the inner product of row r of `x` with row s of `w`. -/
def lin (x : (⟨2, ![8192, 4096]⟩ : Shape).Idx → EReal) (w : (⟨2, ![4096, 4096]⟩ : Shape).Idx → EReal)
    (r : Fin 8192) (s : Fin 4096) : EReal :=
  ∑ k : Fin 4096, x (ix2 r k) * w (ix2 s k)

/-- Group g of row r of the linear map: its columns 128·g … 128·g + 127. -/
def grp (x : (⟨2, ![8192, 4096]⟩ : Shape).Idx → EReal) (w : (⟨2, ![4096, 4096]⟩ : Shape).Idx → EReal)
    (r : Fin 8192) (g : Fin 32) (l : Fin 128) : EReal :=
  lin x w r ⟨g.val * 128 + l.val, by have := g.isLt; have := l.isLt; omega⟩

/-- The whole result: entry (r, s) is entry s mod 128 of group s / 128 of row r, normalized, plus b[s], clipped. -/
def result (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal := fun i =>
  normK (grp x w ⟨(i 0).val, (i 0).isLt⟩ ⟨(i 1).val / 128, by have : (i 1).val < 4096 := (i 1).isLt; omega⟩)
    (b (ix1 ⟨(i 1).val, (i 1).isLt⟩)) ⟨(i 1).val % 128, Nat.mod_lt _ (by decide)⟩

end GroupNorm

end
-- ==== Proof.Payload.lean ====
/-
  The kernel body's three stored values read at an index, at the ideal instance.
-/
import proofs.«120071_j88940182766069_1_alg».proof.Proof.Gen.KernelIdeal.Skeleton
import proofs.«120071_j88940182766069_1_alg».proof.Proof.GroupNorm
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Payload

open Idealize.ShloMosaic Idealize.ShloMosaic.ValueIdx Cert.KernelIdeal Cert.KernelIdeal.Gen

/-- The value that resets the accumulator is zero everywhere. -/
theorem pay1_apply (j : S512x512.Idx) : (k0_pay1 (F := Ideal)) j = 0 := by
  unfold k0_pay1
  refine (congrFun (shapeCast_self _ shapeCasts_S512x512_S512x512) j).trans ?_
  exact Ideal.ofBits_zero_f32

/-! ### The matrix product's operand indices -/

theorem lhs_dot_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_dot_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_dot_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_dot_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The matrix product into the zero accumulator at entry (p, q): row p of the left operand against row q of the right. -/
theorem dot_apply (a b : FVec Ideal S512x1024 .bf16) (p q : Fin 512) :
    FloatOps.matmul dot_S512x1024_S512x1024_S512x512_1_1_0_0_n_n none a b (constant S512x512 .f32 0x00000000#32) (ix2 p q)
      = ∑ u : Fin 1024, a (ix2 p u) * b (ix2 q u) := by
  refine (Ideal.matmul_constant_zero_apply _ _ a b (ix2 p q)).trans ?_
  rw [← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 p q) ((ValueIdx.contrEquiv1 dot_S512x1024_S512x1024_S512x512_1_1_0_0_n_n 1024 rfl rfl).symm k) = ix2 p k := funext fun x => Fin.ext (by
    match x with
    | ⟨0, _⟩ => exact lhs_dot_0 _ _
    | ⟨1, _⟩ => exact (lhs_dot_1 _ _).trans hk)
  have er : dot_S512x1024_S512x1024_S512x512_1_1_0_0_n_n.rhsIdx (ix2 p q) ((ValueIdx.contrEquiv1 dot_S512x1024_S512x1024_S512x512_1_1_0_0_n_n 1024 rfl rfl).symm k) = ix2 q k := funext fun x => Fin.ext (by
    match x with
    | ⟨0, _⟩ => exact rhs_dot_0 _ _
    | ⟨1, _⟩ => exact (rhs_dot_1 _ _).trans hk)
  rw [el, er]

/-- One accumulation step at entry (p, q): what the accumulator held plus the inner product of row p of the x block
    with row q of the w block. -/
theorem pay2_apply (v3 v5 : Vec Ideal S512x1024 .f32) (v7 : Vec Ideal S512x512 .f32) (p q : Fin 512) :
    k0_pay2 v3 v5 v7 (ix2 p q) = v7 (ix2 p q) + ∑ u : Fin 1024, v3 (ix2 p u) * v5 (ix2 q u) := by
  unfold k0_pay2
  refine (congrFun (shapeCast_self _ shapeCasts_S512x512_S512x512) (ix2 p q)).trans ?_
  refine (addf_apply _ _ _).trans ?_
  exact congrArg (v7 (ix2 p q) + ·) (dot_apply _ _ p q)

/-! ### The layout operations of the epilogue at an index -/

/-- Splitting the 512 columns into 4 groups of 128: entry (p, g, l) reads column g·128 + l of row p. -/
theorem cast_split_apply {α : Type} (v : S512x512.Idx → α) (p : Fin 512) (g : Fin 4) (l : Fin 128) :
    shapeCast S512x4x128 v shapeCasts_S512x512_S512x4x128 (ix3 p g l)
      = v (ix2 p (⟨g.val * 128 + l.val, by have := g.isLt; have := l.isLt; omega⟩ : Fin 512)) :=
  shapeCast_apply v shapeCasts_S512x512_S512x4x128 (ix3 p g l) _
    (by rewrite [Shape.rowMajor_val_two, Shape.rowMajor_val_three]
        show p.val * 512 + (g.val * 128 + l.val) = (p.val * 4 + g.val) * 128 + l.val
        omega)

/-- Joining the groups back: entry (p, q) reads lane q mod 128 of group q / 128 of row p. -/
theorem cast_join_apply {α : Type} (v : S512x4x128.Idx → α) (p q : Fin 512) :
    shapeCast S512x512 v shapeCasts_S512x4x128_S512x512 (ix2 p q)
      = v (ix3 p (⟨q.val / 128, by have := q.isLt; omega⟩ : Fin 4) (⟨q.val % 128, Nat.mod_lt _ (by decide)⟩ : Fin 128)) :=
  shapeCast_apply v shapeCasts_S512x4x128_S512x512 (ix2 p q) _
    (by rewrite [Shape.rowMajor_val_three, Shape.rowMajor_val_two]
        show (p.val * 4 + q.val / 128) * 128 + q.val % 128 = p.val * 512 + q.val
        omega)

/-- A trailing unit axis added: entry (p, g, 0) reads entry (p, g). -/
theorem cast_unit_apply {α : Type} (v : S512x4.Idx → α) (p : Fin 512) (g : Fin 4) (z : Fin 1) :
    shapeCast S512x4x1 v shapeCasts_S512x4_S512x4x1 (ix3 p g z) = v (ix2 p g) :=
  shapeCast_apply v shapeCasts_S512x4_S512x4x1 (ix3 p g z) _
    (by rewrite [Shape.rowMajor_val_two, Shape.rowMajor_val_three]
        have hz : z.val = 0 := by have := z.isLt; omega
        show p.val * 4 + g.val = (p.val * 4 + g.val) * 1 + z.val
        omega)

/-- A per-group value spread over the group's 128 lanes. -/
theorem bcast_lane_apply {α : Type} (v : S512x4x1.Idx → α) (p : Fin 512) (g : Fin 4) (l : Fin 128) :
    broadcastTo S512x4x128 v broadcasts_S512x4x1_S512x4x128 (ix3 p g l) = v (ix3 p g (0 : Fin 1)) :=
  broadcastTo_apply v broadcasts_S512x4x1_S512x4x128 (ix3 p g l) _ (fun a => match a with
    | ⟨0, _⟩ => by show p.val = if (512 : Nat) = 1 then 0 else p.val; rw [if_neg (by decide)]
    | ⟨1, _⟩ => by show g.val = if (4 : Nat) = 1 then 0 else g.val; rw [if_neg (by decide)]
    | ⟨2, _⟩ => by show 0 = if (1 : Nat) = 1 then 0 else l.val; rw [if_pos rfl])

/-- The bias row spread over the 512 rows. -/
theorem bcast_row_apply {α : Type} (v : S1x512.Idx → α) (p q : Fin 512) :
    broadcastTo S512x512 v broadcasts_S1x512_S512x512 (ix2 p q) = v (ix2 (0 : Fin 1) q) :=
  broadcastTo_apply v broadcasts_S1x512_S512x512 (ix2 p q) _ (fun a => match a with
    | ⟨0, _⟩ => by show 0 = if (1 : Nat) = 1 then 0 else p.val; rw [if_pos rfl]
    | ⟨1, _⟩ => by show q.val = if (512 : Nat) = 1 then 0 else q.val; rw [if_neg (by decide)])

/-- The sum over the 128 lanes of a group. -/
theorem lane_sum_apply (v : FVec Ideal S512x4x128 .f32) (p : Fin 512) (g : Fin 4) :
    multiReduction .add [2] S512x4 v 0x00000000#32 reduces_S512x4x128_S512x4 (.inl rfl) rfl (ix2 p g)
      = ∑ l : Fin 128, v (ix3 p g l) := by
  refine (Ideal.multiReduction_add_single v 0x00000000#32 reduces_S512x4x128_S512x4 (.inl rfl) rfl (ix2 p g)).trans ?_
  refine Finset.sum_congr rfl fun l _ => congrArg v (funext fun a => Fin.ext ?_)
  match a with
  | ⟨0, _⟩ => rfl
  | ⟨1, _⟩ => rfl
  | ⟨2, _⟩ => rfl

/-! ### The epilogue in named steps -/

/-- Group g of row p of the accumulator: its columns 128·g … 128·g + 127. -/
abbrev grpOf (v16 : Vec Ideal S512x512 .f32) (p : Fin 512) (g : Fin 4) (l : Fin 128) : EReal :=
  v16 (ix2 p (⟨g.val * 128 + l.val, by have := g.isLt; have := l.isLt; omega⟩ : Fin 512))

/-- The accumulator viewed as [512, 4, 128]. -/
def grpv (v16 : Vec Ideal S512x512 .f32) : FVec Ideal S512x4x128 .f32 :=
  shapeCast S512x4x128 v16 shapeCasts_S512x512_S512x4x128

theorem grpv_apply (v16 : Vec Ideal S512x512 .f32) (p : Fin 512) (g : Fin 4) (l : Fin 128) :
    grpv v16 (ix3 p g l) = grpOf v16 p g l :=
  cast_split_apply v16 p g l

/-- The per-group sum over the lanes divided by 128, kept with a trailing unit axis. -/
def avg (w : FVec Ideal S512x4x128 .f32) : FVec Ideal S512x4x1 .f32 :=
  divf (shapeCast S512x4x1 (multiReduction .add [2] S512x4 w 0x00000000#32 reduces_S512x4x128_S512x4 (.inl rfl) rfl) shapeCasts_S512x4_S512x4x1)
    (broadcast S512x4x1 (Scalar.ofBits .f32 0x43000000#32))

theorem avg_apply (w : FVec Ideal S512x4x128 .f32) (p : Fin 512) (g : Fin 4) :
    avg w (ix3 p g (0 : Fin 1)) = Ideal.div (∑ l : Fin 128, w (ix3 p g l)) GroupNorm.c128 := by
  unfold avg
  refine (divf_apply _ _ _).trans ?_
  refine congrArg (Ideal.div · GroupNorm.c128) ?_
  exact (cast_unit_apply _ p g 0).trans (lane_sum_apply w p g)

/-- Every lane minus its group's mean. -/
def devv (v16 : Vec Ideal S512x512 .f32) : FVec Ideal S512x4x128 .f32 :=
  subf (grpv v16) (broadcastTo S512x4x128 (avg (grpv v16)) broadcasts_S512x4x1_S512x4x128)

theorem devv_apply (v16 : Vec Ideal S512x512 .f32) (p : Fin 512) (g : Fin 4) (l : Fin 128) :
    devv v16 (ix3 p g l) = GroupNorm.dev (grpOf v16 p g) l := by
  unfold devv GroupNorm.dev GroupNorm.mean
  refine (subf_apply _ _ _).trans ?_
  refine congrArg₂ (· - ·) (grpv_apply v16 p g l) ?_
  refine (bcast_lane_apply _ p g l).trans ((avg_apply _ p g).trans ?_)
  exact congrArg (Ideal.div · GroupNorm.c128) (Finset.sum_congr rfl fun l' _ => grpv_apply v16 p g l')

/-- The reciprocal square root of each group's variance plus the offset, kept with a trailing unit axis. -/
def rstd (v16 : Vec Ideal S512x512 .f32) : FVec Ideal S512x4x1 .f32 :=
  rsqrt (addf (avg (mulf (devv v16) (devv v16))) (broadcast S512x4x1 (Scalar.ofBits .f32 0x358637BD#32)))

theorem rstd_apply (v16 : Vec Ideal S512x512 .f32) (p : Fin 512) (g : Fin 4) :
    rstd v16 (ix3 p g (0 : Fin 1)) = Ideal.rsqrt (GroupNorm.var (grpOf v16 p g) + GroupNorm.eps) := by
  unfold rstd GroupNorm.var
  show Ideal.rsqrt (avg (mulf (devv v16) (devv v16)) (ix3 p g (0 : Fin 1)) + GroupNorm.eps) = _
  refine congrArg (fun t => Ideal.rsqrt (t + GroupNorm.eps)) ?_
  refine (avg_apply _ p g).trans ?_
  refine congrArg (Ideal.div · GroupNorm.c128) (Finset.sum_congr rfl fun l _ => ?_)
  refine (mulf_apply _ _ _).trans ?_
  exact congrArg₂ (· * ·) (devv_apply v16 p g l) (devv_apply v16 p g l)

/-- The epilogue's value as one term over the named steps. -/
theorem pay3_eq (v16 : Vec Ideal S512x512 .f32) (v35 : Vec Ideal S1x512 .f32) :
    k0_pay3 v16 v35
      = minimumf (broadcast S512x512 (Scalar.ofBits .f32 0x40000000#32))
          (maximumf (broadcast S512x512 (Scalar.ofBits .f32 0xC0000000#32))
            (addf (shapeCast S512x512 (mulf (devv v16) (broadcastTo S512x4x128 (rstd v16) broadcasts_S512x4x1_S512x4x128)) shapeCasts_S512x4x128_S512x512)
              (broadcastTo S512x512 (shapeCast S1x512 v35 shapeCasts_S1x512_S1x512) broadcasts_S1x512_S512x512))) := rfl

/-- The epilogue at entry (p, q): the group of 128 columns of row p that holds column q, normalized (the kernel's
    spelling), plus the bias of column q, clipped. -/
theorem pay3_apply (v16 : Vec Ideal S512x512 .f32) (v35 : Vec Ideal S1x512 .f32) (p q : Fin 512) :
    k0_pay3 v16 v35 (ix2 p q)
      = GroupNorm.normK (fun l : Fin 128 => v16 (ix2 p (⟨q.val / 128 * 128 + l.val, by have := q.isLt; have := l.isLt; omega⟩ : Fin 512)))
          (v35 (ix2 (0 : Fin 1) q)) ⟨q.val % 128, Nat.mod_lt _ (by decide)⟩ := by
  refine (congrFun (pay3_eq v16 v35) (ix2 p q)).trans ?_
  unfold GroupNorm.normK
  refine congrArg (fun t => min GroupNorm.hi (max GroupNorm.lo t)) ?_
  refine congrArg₂ (· + ·) ?_ ?_
  · refine (cast_join_apply _ p q).trans ?_
    refine (mulf_apply _ _ _).trans ?_
    refine congrArg₂ (· * ·) (devv_apply v16 p _ _) ?_
    exact (bcast_lane_apply _ p _ _).trans (rstd_apply v16 p _)
  · refine (bcast_row_apply _ p q).trans ?_
    exact congrFun (shapeCast_self v35 shapeCasts_S1x512_S1x512) _

end Cert.KernelIdeal.Payload

end
-- ==== Proof.GroupNormLaws.lean ====
/-
  The laws that join the two spellings of a normalized group, and the two facts about the linear map the value proof
  uses: it is real when its operands are, and its 4096-term inner product is the sum of four 1024-term chunks.
-/
import proofs.«120071_j88940182766069_1_alg».proof.Proof.GroupNorm

noncomputable section

open scoped BigOperators

namespace GroupNorm

open Idealize.ShloMosaic Idealize.ShloMosaic.ValueIdx

/-- An extended real that is a real number. -/
def IsReal (e : EReal) : Prop := ∃ r : ℝ, e = (r : EReal)

/-- The group size is the real number 128. -/
theorem c128_eq : c128 = ((128 : ℝ) : EReal) := by
  simp [c128, Ideal.ofBits, Ideal.ieee, -EReal.coe_mul]; norm_num

/-- The lower clip bound is the real number -2. -/
theorem lo_eq : lo = ((-2 : ℝ) : EReal) := by
  simp [lo, Ideal.ofBits, Ideal.ieee, -EReal.coe_mul]; norm_num

/-- The upper clip bound is the real number 2. -/
theorem hi_eq : hi = ((2 : ℝ) : EReal) := by
  simp [hi, Ideal.ofBits, Ideal.ieee, -EReal.coe_mul]; norm_num

/-- The variance offset is a positive real number. -/
theorem eps_eq : ∃ e : ℝ, 0 < e ∧ eps = (e : EReal) := by
  simp [eps, Ideal.ofBits, Ideal.ieee, -EReal.coe_mul]

theorem lo_le_hi : lo ≤ hi := by
  rw [lo_eq, hi_eq]; exact_mod_cast (by norm_num : (-2 : ℝ) ≤ 2)

/-- A finite sum of coerced reals is the coerced real sum. -/
theorem coe_sum' {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Clipping twice to the same bounds is clipping once. -/
theorem clip_clip {a b : EReal} (h : a ≤ b) (z : EReal) :
    min b (max a (min b (max a z))) = min b (max a z) := by
  rw [max_eq_right (le_min h (le_max_left _ _)), min_eq_right (min_le_left _ _)]

/-- The real mean of a real group. -/
def rmean (f : Fin 128 → ℝ) : ℝ := (∑ l : Fin 128, f l) * (1 / 128)

/-- The real biased variance of a real group. -/
def rvar (f : Fin 128 → ℝ) : ℝ := (∑ l : Fin 128, (f l - rmean f) * (f l - rmean f)) * (1 / 128)

theorem rvar_nonneg (f : Fin 128 → ℝ) : 0 ≤ rvar f := by
  unfold rvar
  refine mul_nonneg (Finset.sum_nonneg fun l _ => mul_self_nonneg _) (by norm_num)

theorem mean_coe (f : Fin 128 → ℝ) : mean (fun l => (f l : EReal)) = ((rmean f : ℝ) : EReal) := by
  unfold mean rmean
  rw [c128_eq, Ideal.div_coe (by norm_num), coe_sum', ← EReal.coe_mul]

theorem dev_coe (f : Fin 128 → ℝ) (l : Fin 128) :
    dev (fun l => (f l : EReal)) l = ((f l - rmean f : ℝ) : EReal) := by
  unfold dev
  rw [mean_coe, ← EReal.coe_sub]

theorem var_coe (f : Fin 128 → ℝ) : var (fun l => (f l : EReal)) = ((rvar f : ℝ) : EReal) := by
  unfold var rvar
  rw [c128_eq, Ideal.div_coe (by norm_num)]
  have h : ∑ l : Fin 128, dev (fun l => (f l : EReal)) l * dev (fun l => (f l : EReal)) l
      = ((∑ l : Fin 128, (f l - rmean f) * (f l - rmean f) : ℝ) : EReal) := by
    rw [← coe_sum']
    refine Finset.sum_congr rfl fun l _ => ?_
    rw [dev_coe, EReal.coe_mul]
  rw [h, ← EReal.coe_mul]

/-- On a group of real numbers the two spellings agree: the variance is a nonnegative real, so variance + eps is a
    positive real, where dividing by the square root is multiplying by its reciprocal; and clipping twice to the same
    bounds is clipping once. -/
theorem normR_eq_normK (v : Fin 128 → EReal) (hv : ∀ l, IsReal (v l)) (β : EReal) (l : Fin 128) :
    normR v β l = normK v β l := by
  choose f hf using hv
  obtain rfl : v = fun l => (f l : EReal) := funext hf
  obtain ⟨e, he, hee⟩ := eps_eq
  unfold normR normK
  rw [clip_clip lo_le_hi]
  have ht : 0 < rvar f + e := add_pos_of_nonneg_of_pos (rvar_nonneg f) he
  have hs : Real.sqrt (rvar f + e) ≠ 0 := (Real.sqrt_pos.mpr ht).ne'
  have hq : Ideal.div (dev (fun l => (f l : EReal)) l) (Ideal.sqrt (var (fun l => (f l : EReal)) + eps))
      = dev (fun l => (f l : EReal)) l * Ideal.rsqrt (var (fun l => (f l : EReal)) + eps) := by
    rw [var_coe, hee, ← EReal.coe_add, Ideal.sqrt_coe, Ideal.rsqrt_coe, if_neg (not_lt.mpr ht.le),
      if_neg (not_lt.mpr ht.le), if_neg ht.ne', Ideal.div_coe hs, one_div]
  rw [hq]

/-- An inner product of real rows is real. -/
theorem lin_isReal (x : (⟨2, ![8192, 4096]⟩ : Shape).Idx → EReal) (w : (⟨2, ![4096, 4096]⟩ : Shape).Idx → EReal)
    (hx : ∀ i, IsReal (x i)) (hw : ∀ i, IsReal (w i)) (r : Fin 8192) (s : Fin 4096) : IsReal (lin x w r s) := by
  choose fx hfx using hx
  choose fw hfw using hw
  refine ⟨∑ k : Fin 4096, fx (ix2 r k) * fw (ix2 s k), ?_⟩
  unfold lin
  rw [← coe_sum']
  refine Finset.sum_congr rfl fun k _ => ?_
  rw [hfx, hfw, EReal.coe_mul]

/-- A sum over 4096 consecutive naturals taken in four chunks of 1024. -/
theorem sum_chunks (f : ℕ → EReal) :
    ∑ s ∈ Finset.range 4, ∑ u : Fin 1024, f (1024 * s + u.val) = ∑ k : Fin 4096, f k.val := by
  have h : ∀ n : ℕ, ∑ s ∈ Finset.range n, ∑ u : Fin 1024, f (1024 * s + u.val)
      = ∑ k ∈ Finset.range (1024 * n), f k := by
    intro n
    induction n with
    | zero => simp
    | succ n ih =>
      rw [Finset.sum_range_succ, ih, Nat.mul_succ, Finset.sum_range_add,
        Fin.sum_univ_eq_sum_range (fun u => f (1024 * n + u)) 1024]
  rw [h 4, Fin.sum_univ_eq_sum_range f 4096]

end GroupNorm

end
-- ==== Proof.KernelValue.lean ====
/-
  The kernel's result array is the specification's function of the three argument arrays.

  The grid is 16 × 8 × 4: point t = 32·i + 4·j + k works on rows 512·i … of x, rows 512·j … of w (the output's columns) and
  reduction chunk k. The accumulator after the last chunk of a run of four points is the full inner product; the output
  block written there is its group normalization plus the bias, clipped; the 128 output blocks tile the array.
-/
import proofs.«120071_j88940182766069_1_alg».proof.Proof.Gen.KernelIdeal.Value
import proofs.«120071_j88940182766069_1_alg».proof.Proof.Pieces
import proofs.«120071_j88940182766069_1_alg».proof.Proof.Payload
import proofs.«120071_j88940182766069_1_alg».proof.Proof.GroupNormLaws
import Idealize.ShloMosaic.Lib.Pipeline.Value
import Idealize.ShloMosaic.Lib.StableHlo.Run

set_option maxRecDepth 16384

noncomputable section

open scoped BigOperators

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The arrays and the blocks, at their literal types -/

abbrev xarr (c : Dev nD) : Vec Ideal S8192x4096 .f32 := m ((c : Thread nD τ).loc main_arg0)
abbrev warr (c : Dev nD) : Vec Ideal S4096x4096 .f32 := m ((c : Thread nD τ).loc main_arg1)
abbrev barr (c : Dev nD) : Vec Ideal S4096 .f32 := m ((c : Thread nD τ).loc main_arg2)
abbrev xblk (c : Dev nD) (t : Fin cfg0.N) : Vec Ideal S512x1024 .f32 := iblk m c 0 t
abbrev wblk (c : Dev nD) (t : Fin cfg0.N) : Vec Ideal S512x1024 .f32 := iblk m c 1 t
abbrev bblk (c : Dev nD) (t : Fin cfg0.N) : Vec Ideal S1x512 .f32 := iblk m c 2 t

theorem lt512 (t : Fin cfg0.N) : t.val < 512 := lt_of_lt_of_eq t.isLt (show cfg0.N = 512 from N_0)

/-- The row of the array that row p of a block at point t is. -/
def rowOf (t : Fin cfg0.N) (p : Fin 512) : Fin 8192 := ⟨512 * (t.val / 32) + p.val, by have := lt512 t; have := p.isLt; omega⟩
/-- The output column (row of w) that column q of a block at point t is. -/
def colOf (t : Fin cfg0.N) (q : Fin 512) : Fin 4096 := ⟨512 * (t.val / 4 % 8) + q.val, by have := q.isLt; omega⟩
/-- The reduction index that entry u of chunk s is. -/
def redOf (s : ℕ) (u : Fin 1024) (hs : s < 4) : Fin 4096 := ⟨1024 * s + u.val, by have := u.isLt; omega⟩

/-- The block index maps in closed form, decided over the grid. -/
theorem idx_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = 0 ∧ win0_2.index t (1 : Fin 2) = t.val / 4 % 8
    ∧ win0_3.index t (0 : Fin 2) = t.val / 32 ∧ win0_3.index t (1 : Fin 2) = t.val / 4 % 8 :=
  (by decide +kernel : ∀ t : Fin grid0.N, _)

/-- The x block at point t is rows 512·(t/32) …, columns 1024·(t mod 4) … of x. -/
theorem xblk_apply (c : Dev nD) (t : Fin cfg0.N) (p : Fin 512) (u : Fin 1024) :
    xblk m c t (ix2 p u) = xarr m c (ix2 (rowOf t p) (redOf (t.val % 4) u (Nat.mod_lt _ (by decide)))) := by
  obtain ⟨e0, e1, -⟩ := idx_facts t
  show V m c main_arg0 (((cfg0.win 0).blk t).view.emb (ix2 p u)) = _
  rw [V_main_arg0]
  refine congrArg (m ((c : Thread nD τ).loc main_arg0)) (funext fun a => Fin.ext ?_)
  match a with
  | ⟨0, _⟩ => show win0_0.index t (0 : Fin 2) * 512 + 1 * p.val = 512 * (t.val / 32) + p.val; rw [e0]; omega
  | ⟨1, _⟩ => show win0_0.index t (1 : Fin 2) * 1024 + 1 * u.val = 1024 * (t.val % 4) + u.val; rw [e1]; omega

/-- The w block at point t is rows 512·(t/4 mod 8) …, columns 1024·(t mod 4) … of w. -/
theorem wblk_apply (c : Dev nD) (t : Fin cfg0.N) (q : Fin 512) (u : Fin 1024) :
    wblk m c t (ix2 q u) = warr m c (ix2 (colOf t q) (redOf (t.val % 4) u (Nat.mod_lt _ (by decide)))) := by
  obtain ⟨-, -, e0, e1, -⟩ := idx_facts t
  show V m c main_arg1 (((cfg0.win 1).blk t).view.emb (ix2 q u)) = _
  rw [V_main_arg1]
  refine congrArg (m ((c : Thread nD τ).loc main_arg1)) (funext fun a => Fin.ext ?_)
  match a with
  | ⟨0, _⟩ => show win0_1.index t (0 : Fin 2) * 512 + 1 * q.val = 512 * (t.val / 4 % 8) + q.val; rw [e0]; omega
  | ⟨1, _⟩ => show win0_1.index t (1 : Fin 2) * 1024 + 1 * u.val = 1024 * (t.val % 4) + u.val; rw [e1]; omega

/-! ## The bias block -/

/-- The bias row as the region finds it: b reshaped to one row by the host. -/
theorem brow_eq (c : Dev nD) :
    (V m c main_v0 : S1x4096.Idx → EReal) = shapeCast S1x4096 (barr m c) shapeCasts_S4096_S1x4096 := by
  dsimp only [V, hostOps0]; after_results; rfl

/-- The bias block at point t is entries 512·(t/4 mod 8) … of b. -/
theorem bblk_apply (c : Dev nD) (t : Fin cfg0.N) (q : Fin 512) :
    bblk m c t (ix2 (0 : Fin 1) q) = barr m c (ix1 (colOf t q)) := by
  obtain ⟨-, -, -, -, e0, e1, -⟩ := idx_facts t
  show V m c main_v0 (((cfg0.win 2).blk t).view.emb (ix2 (0 : Fin 1) q)) = _
  refine (congrFun (brow_eq m c) _).trans ?_
  refine shapeCast_apply (barr m c) shapeCasts_S4096_S1x4096 _ (ix1 (colOf t q)) ?_
  rw [Shape.rowMajor_val_one, Shape.rowMajor_val_two]
  show 512 * (t.val / 4 % 8) + q.val
    = (win0_2.index t (0 : Fin 2) * 1 + 1 * (0 : ℕ)) * 4096 + (win0_2.index t (1 : Fin 2) * 512 + 1 * q.val)
  rw [e0, e1]; omega

/-! ## The accumulator over a run of four points -/

/-- What point n adds into the accumulator at entry i: the inner product of the point's x rows and w rows over its
    reduction chunk (zero past the grid, where it is never used). -/
def chunk (c : Dev nD) (n : ℕ) (i : S512x512.Idx) : EReal :=
  if h : n < cfg0.N then
    ∑ u : Fin 1024, xblk m c ⟨n, h⟩ (ix2 (⟨(i 0).val, (i 0).isLt⟩ : Fin 512) u) * wblk m c ⟨n, h⟩ (ix2 (⟨(i 1).val, (i 1).isLt⟩ : Fin 512) u)
  else 0

/-- An accumulation step, whatever the accumulator held: it adds the point's chunk. -/
theorem pay2_chunk (c : Dev nD) (n : ℕ) (h : n < cfg0.N) (acc : Vec Ideal S512x512 .f32) (i : S512x512.Idx) :
    k0_pay2 (xblk m c ⟨n, h⟩) (wblk m c ⟨n, h⟩) acc i = acc i + chunk m c n i := by
  obtain ⟨p, q, rfl⟩ : ∃ (p q : Fin 512), i = ix2 p q := ⟨i 0, i 1, eq_ix2 i⟩
  rw [Payload.pay2_apply]
  unfold chunk
  rw [dif_pos h]

/-- After the last point of a run (t ≡ 3 mod 4) the accumulator is the sum of the run's four chunks. -/
theorem scratch_fold (c : Dev nD) (t : Fin cfg0.N) (ht : t.val % 4 = 3) (i : S512x512.Idx) :
    (outsAt0 m c t.val t.isLt).2 i = 0 + ∑ s ∈ Finset.range (3 + 1), chunk m c (4 * (t.val / 4) + s) i := by
  have hN := lt512 t
  have key := Pipeline.accAt_add_apply (N := cfg0.N)
    (fun n h => Value.scAt0_0 m c n h (VS0_0.read (Elt Ideal) VS0_0.junk)) (Value.scAt0_0 m c)
    (fun _ => (0 : EReal)) (chunk m c) (4 * (t.val / 4)) 3
    (fun h i => by
      have h0 : 4 * (t.val / 4) % 4 = 0 := by omega
      have h1 : ¬ 4 * (t.val / 4) % 4 = 3 := by omega
      show Value.scAt0_0 m c (4 * (t.val / 4)) h _ i = 0 + chunk m c (4 * (t.val / 4)) i
      unfold Value.scAt0_0
      rw [dif_pos h0, dif_neg h1, Pieces.scratch_A]
      refine (pay2_chunk m c _ h _ i).trans ?_
      rw [Payload.pay1_apply])
    (fun n h acc i hlo hhi => by
      have h0 : ¬ n % 4 = 0 := by omega
      show Value.scAt0_0 m c n h acc i = acc i + chunk m c n i
      unfold Value.scAt0_0
      by_cases h1 : n % 4 = 3
      · rw [dif_neg h0, dif_pos h1, Pieces.scratch_C]
        exact pay2_chunk m c n h acc i
      · rw [dif_neg h0, dif_neg h1, Pieces.scratch_B]
        exact pay2_chunk m c n h acc i)
    (t.val % 4) (by omega) (by omega) i
  rw [Value.soutsAt0_0_eq m c t, key, ht]

/-- A chunk of the run that holds point t, in terms of the arrays: chunk s of the inner product of row rowOf t p of x
    with row colOf t q of w. -/
theorem chunk_apply (c : Dev nD) (t : Fin cfg0.N) (s : ℕ) (hs : s < 4) (p q : Fin 512) :
    chunk m c (4 * (t.val / 4) + s) (ix2 p q)
      = ∑ u : Fin 1024, xarr m c (ix2 (rowOf t p) (redOf s u hs)) * warr m c (ix2 (colOf t q) (redOf s u hs)) := by
  have hN := lt512 t
  have hn : 4 * (t.val / 4) + s < cfg0.N :=
    lt_of_lt_of_eq (by omega : 4 * (t.val / 4) + s < 512) (show (512 : ℕ) = cfg0.N from N_0.symm)
  unfold chunk
  rw [dif_pos hn]
  refine Finset.sum_congr rfl fun u _ => ?_
  rw [xblk_apply, wblk_apply]
  have eA : rowOf (⟨4 * (t.val / 4) + s, hn⟩ : Fin cfg0.N) p = rowOf t p :=
    Fin.ext (by show 512 * ((4 * (t.val / 4) + s) / 32) + p.val = 512 * (t.val / 32) + p.val; omega)
  have eC : colOf (⟨4 * (t.val / 4) + s, hn⟩ : Fin cfg0.N) q = colOf t q :=
    Fin.ext (by show 512 * ((4 * (t.val / 4) + s) / 4 % 8) + q.val = 512 * (t.val / 4 % 8) + q.val; omega)
  have eK : redOf ((4 * (t.val / 4) + s) % 4) u (Nat.mod_lt _ (by decide)) = redOf s u hs :=
    Fin.ext (by show 1024 * ((4 * (t.val / 4) + s) % 4) + u.val = 1024 * s + u.val; omega)
  show xarr m c (ix2 (rowOf (⟨4 * (t.val / 4) + s, hn⟩ : Fin cfg0.N) p) (redOf ((4 * (t.val / 4) + s) % 4) u _))
      * warr m c (ix2 (colOf (⟨4 * (t.val / 4) + s, hn⟩ : Fin cfg0.N) q) (redOf ((4 * (t.val / 4) + s) % 4) u _)) = _
  rw [eA, eC, eK]

/-- After the last point of a run the accumulator holds the linear map on the run's rows and columns. -/
theorem acc_eq (c : Dev nD) (t : Fin cfg0.N) (ht : t.val % 4 = 3) (p q : Fin 512) :
    (outsAt0 m c t.val t.isLt).2 (ix2 p q) = GroupNorm.lin (xarr m c) (warr m c) (rowOf t p) (colOf t q) := by
  let f : ℕ → EReal := fun k =>
    if hk : k < 4096 then xarr m c (ix2 (rowOf t p) ⟨k, hk⟩) * warr m c (ix2 (colOf t q) ⟨k, hk⟩) else 0
  have h1 : ∑ s ∈ Finset.range (3 + 1), chunk m c (4 * (t.val / 4) + s) (ix2 p q)
      = ∑ s ∈ Finset.range 4, ∑ u : Fin 1024, f (1024 * s + u.val) := by
    refine Finset.sum_congr rfl fun s hs => ?_
    have hs' : s < 4 := Finset.mem_range.mp hs
    rw [chunk_apply m c t s hs' p q]
    refine Finset.sum_congr rfl fun u _ => ?_
    have hu := u.isLt
    show _ = if hk : 1024 * s + u.val < 4096 then _ else 0
    rw [dif_pos (by omega)]
    rfl
  have h2 : ∑ k : Fin 4096, f k.val = ∑ k : Fin 4096, xarr m c (ix2 (rowOf t p) k) * warr m c (ix2 (colOf t q) k) :=
    Finset.sum_congr rfl fun k _ => by
      show (if hk : k.val < 4096 then _ else 0) = _
      rw [dif_pos k.isLt]
  rw [scratch_fold m c t ht, zero_add, h1, GroupNorm.sum_chunks f, h2]
  rfl

/-! ## The output block, the cover, the array -/

/-- At the last point of a run the output block is the result array's block on the run's rows and columns. -/
theorem out_apply (c : Dev nD) (t : Fin cfg0.N) (ht : t.val % 4 = 3) (j : S512x512.Idx) :
    (outsAt0 m c t.val t.isLt).1 j
      = GroupNorm.result (xarr m c) (warr m c) (barr m c)
          (ix2 (rowOf t ⟨(j 0).val, (j 0).isLt⟩) (colOf t ⟨(j 1).val, (j 1).isLt⟩)) := by
  obtain ⟨p, q, rfl⟩ : ∃ (p q : Fin 512), j = ix2 p q := ⟨j 0, j 1, eq_ix2 j⟩
  have h0 : ¬ t.val % 4 = 0 := by omega
  have hq := q.isLt
  have e1 : (outsAt0 m c t.val t.isLt).1 = k0_pay3 ((outsAt0 m c t.val t.isLt).2) (bblk m c t) := by
    rw [outsAt0_C m c t h0 ht]; dsimp only; rw [Pieces.out_C, Pieces.scratch_C]
  have hv : (fun l : Fin 128 => (outsAt0 m c t.val t.isLt).2
        (ix2 p (⟨q.val / 128 * 128 + l.val, by have := l.isLt; omega⟩ : Fin 512)))
      = GroupNorm.grp (xarr m c) (warr m c) (rowOf t p) ⟨(colOf t q).val / 128, by have := (colOf t q).isLt; omega⟩ := by
    funext l
    have hl := l.isLt
    rw [acc_eq m c t ht]
    unfold GroupNorm.grp
    exact congrArg (GroupNorm.lin _ _ _) (Fin.ext (by
      show 512 * (t.val / 4 % 8) + (q.val / 128 * 128 + l.val) = (512 * (t.val / 4 % 8) + q.val) / 128 * 128 + l.val
      omega))
  have hl : (⟨q.val % 128, Nat.mod_lt _ (by decide)⟩ : Fin 128) = ⟨(colOf t q).val % 128, Nat.mod_lt _ (by decide)⟩ :=
    Fin.ext (by show q.val % 128 = (512 * (t.val / 4 % 8) + q.val) % 128; omega)
  rw [e1, Payload.pay3_apply, bblk_apply, hv, hl]
  rfl

/-- What a writing point writes back is its block of the result array. -/
theorem flushed_eq (c : Dev nD) (t : Fin cfg0.N) (hf : (cfg0.win 3).flush t = true) :
    (dats m 0 c).flushed 3 t
      = ((cfg0.win 3).blk t).view.read (Elt Ideal) (GroupNorm.result (xarr m c) (warr m c) (barr m c)) := by
  have ht : t.val % 4 = 3 := (flush0_3 t).mp hf
  obtain ⟨-, -, -, -, -, -, e0, e1⟩ := idx_facts t
  rw [Value.flushed3]
  funext j
  show (outsAt0 m c t.val t.isLt).1 j
    = GroupNorm.result (xarr m c) (warr m c) (barr m c) (((cfg0.win 3).blk t).view.emb j)
  refine (out_apply m c t ht j).trans (congrArg _ (funext fun a => Fin.ext ?_))
  match a with
  | ⟨0, _⟩ => show 512 * (t.val / 32) + (j 0).val = win0_3.index t (0 : Fin 2) * 512 + 1 * (j 0).val; rw [e0]; omega
  | ⟨1, _⟩ => show 512 * (t.val / 4 % 8) + (j 1).val = win0_3.index t (1 : Fin 2) * 512 + 1 * (j 1).val; rw [e1]; omega

/-- An entry of the array is in point t's block iff each coordinate is in the block's range on its axis. -/
theorem mem_blk (t : Fin cfg0.N) (i : S8192x4096.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v1).slice (win0_3.rect t)).set ↔ _
  rw [View.set_slice_whole, Rect.mem_set_unit]
  exact Iff.rfl

/-- Every entry (r, s) is in the block written at point 32·(r/512) + 4·(s/512) + 3. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 512 := N_0
  obtain ⟨t, tv⟩ : ∃ t : Fin cfg0.N, t.val = 32 * ((i 0).val / 512) + 4 * ((i 1).val / 512) + 3 :=
    ⟨⟨32 * ((i 0).val / 512) + 4 * ((i 1).val / 512) + 3, by rw [hN]; omega⟩, rfl⟩
  obtain ⟨-, -, -, -, -, -, e0, e1⟩ := idx_facts t
  refine ⟨t, (flush0_3 t).mpr (by rw [tv]; omega), ?_⟩
  rw [mem_blk]
  intro a
  match a with
  | ⟨0, _⟩ =>
    show win0_3.index t (0 : Fin 2) * 512 ≤ (i 0).val ∧ (i 0).val < win0_3.index t (0 : Fin 2) * 512 + 512
    rw [e0, tv]; omega
  | ⟨1, _⟩ =>
    show win0_3.index t (1 : Fin 2) * 512 ≤ (i 1).val ∧ (i 1).val < win0_3.index t (1 : Fin 2) * 512 + 512
    rw [e1, tv]; omega

/-- The result array after the run. -/
theorem final (c : Dev nD) :
    (dats m 0 c).arrAt 3 cfg0.N = GroupNorm.result (xarr m c) (warr m c) (barr m c) :=
  (dats m 0 c).arrAt_eq_of_cover 3 _ (fun t hf => flushed_eq m c t hf) cover

/-- The kernel's run: it ends with the result array at the specification's function of the arguments, which are unchanged. -/
theorem run : θ_run defs (onTc (τ := τ) (main (F := Ideal))) ⟨m, fun _ => 0, ρ⟩ fun r => ∀ c : Dev nD,
      r.2.mem ((c : Thread nD τ).loc main_v1) = GroupNorm.result (xarr m c) (warr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.RefValue.lean ====
/-
  The reference program's result, stage by stage, is the specification's result array when the inputs are real.
-/
import proofs.«120071_j88940182766069_1_alg».proof.Proof.Gen.ReferenceIdeal.Read
import proofs.«120071_j88940182766069_1_alg».proof.Proof.GroupNormLaws

noncomputable section

open scoped BigOperators

namespace Cert.ReferenceIdeal.RefValue

open Idealize.ShloMosaic Idealize.ShloMosaic.ValueIdx Cert.ReferenceIdeal Cert.ReferenceIdeal.Gen Cert.ReferenceIdeal.Read

/-- The reshaped linear map at (r, g, l) is entry l of group g of row r: the flat position
    (r·32 + g)·128 + l has quotient r and remainder g·128 + l on division by 4096. -/
theorem v1_eq (x0 : (⟨S8192x4096, .f32⟩ : BufTy).Contents (Elt Ideal)) (x1 : (⟨S4096x4096, .f32⟩ : BufTy).Contents (Elt Ideal))
    (r : Fin 8192) (g : Fin 32) (l : Fin 128) :
    val_main_v1 (F := Ideal) x0 x1 (ix3 r g l) = GroupNorm.grp x0 x1 r g l := by
  rw [val_main_v1_apply, val_main_v0_apply]
  unfold GroupNorm.grp GroupNorm.lin
  refine Finset.sum_congr rfl fun k _ => ?_
  have hl : lidx_main_v0 (idx_main_v1 (ix3 r g l)) k = ix2 r k := funext fun a => Fin.ext (by
    match a with
    | ⟨0, _⟩ =>
      have hg := g.isLt; have hl := l.isLt
      show ((r.val * 32 + g.val) * 128 + l.val) / 4096 = r.val
      omega
    | ⟨1, _⟩ => rfl)
  have hr : ridx_main_v0 (idx_main_v1 (ix3 r g l)) k
      = ix2 (⟨g.val * 128 + l.val, by have := g.isLt; have := l.isLt; omega⟩ : Fin 4096) k := funext fun a => Fin.ext (by
    match a with
    | ⟨0, _⟩ =>
      have hg := g.isLt; have hl := l.isLt
      show ((r.val * 32 + g.val) * 128 + l.val) % 4096 = g.val * 128 + l.val
      omega
    | ⟨1, _⟩ => rfl)
  rw [hl, hr]

/-- The mean stage: the sum of a group (from a zero start) divided by 128. -/
theorem v5_eq (x0 : (⟨S8192x4096, .f32⟩ : BufTy).Contents (Elt Ideal)) (x1 : (⟨S4096x4096, .f32⟩ : BufTy).Contents (Elt Ideal))
    (r : Fin 8192) (g : Fin 32) (z : Fin 1) :
    val_main_v5 (F := Ideal) x0 x1 (ix3 r g z) = GroupNorm.mean (GroupNorm.grp x0 x1 r g) := by
  rw [val_main_v5_apply, val_main_v3_apply, val_main_v2_apply, val_main_v4_apply, val_main_cst_0_apply,
    val_main_cst_apply, Ideal.hostDivf_def, Ideal.ofBits_def, Ideal.ofBits_def, Ideal.ofBits_zero_f32, zero_add]
  unfold GroupNorm.mean
  refine congrArg (fun t => Ideal.div t GroupNorm.c128) (Finset.sum_congr rfl fun k _ => ?_)
  have hi : idx_main_v2 (idx_main_v3 (ix3 r g z)) k = ix3 r g k := funext fun a => Fin.ext (by
    match a with
    | ⟨0, _⟩ => rfl
    | ⟨1, _⟩ => rfl
    | ⟨2, _⟩ => rfl)
  rw [hi, v1_eq]

/-- The mean broadcast back along the group. -/
theorem v6_eq (x0 : (⟨S8192x4096, .f32⟩ : BufTy).Contents (Elt Ideal)) (x1 : (⟨S4096x4096, .f32⟩ : BufTy).Contents (Elt Ideal))
    (r : Fin 8192) (g : Fin 32) (l : Fin 128) :
    val_main_v6 (F := Ideal) x0 x1 (ix3 r g l) = GroupNorm.mean (GroupNorm.grp x0 x1 r g) := by
  rw [val_main_v6_apply]
  have hi : idx_main_v6 (ix3 r g l) = ix3 r g (0 : Fin 1) := funext fun a => Fin.ext (by
    match a with
    | ⟨0, _⟩ => rfl
    | ⟨1, _⟩ => rfl
    | ⟨2, _⟩ => rfl)
  rw [hi, v5_eq]

/-- The same broadcast, taken a second time by the program. -/
theorem v13_eq (x0 : (⟨S8192x4096, .f32⟩ : BufTy).Contents (Elt Ideal)) (x1 : (⟨S4096x4096, .f32⟩ : BufTy).Contents (Elt Ideal))
    (r : Fin 8192) (g : Fin 32) (l : Fin 128) :
    val_main_v13 (F := Ideal) x0 x1 (ix3 r g l) = GroupNorm.mean (GroupNorm.grp x0 x1 r g) := by
  rw [val_main_v13_apply]
  have hi : idx_main_v13 (ix3 r g l) = ix3 r g (0 : Fin 1) := funext fun a => Fin.ext (by
    match a with
    | ⟨0, _⟩ => rfl
    | ⟨1, _⟩ => rfl
    | ⟨2, _⟩ => rfl)
  rw [hi, v5_eq]

/-- The deviation from the mean. -/
theorem v7_eq (x0 : (⟨S8192x4096, .f32⟩ : BufTy).Contents (Elt Ideal)) (x1 : (⟨S4096x4096, .f32⟩ : BufTy).Contents (Elt Ideal))
    (r : Fin 8192) (g : Fin 32) (l : Fin 128) :
    val_main_v7 (F := Ideal) x0 x1 (ix3 r g l) = GroupNorm.dev (GroupNorm.grp x0 x1 r g) l := by
  rw [val_main_v7_apply, Ideal.subf_def, v1_eq, v6_eq]
  rfl

/-- The deviation, computed a second time by the program. -/
theorem v14_eq (x0 : (⟨S8192x4096, .f32⟩ : BufTy).Contents (Elt Ideal)) (x1 : (⟨S4096x4096, .f32⟩ : BufTy).Contents (Elt Ideal))
    (r : Fin 8192) (g : Fin 32) (l : Fin 128) :
    val_main_v14 (F := Ideal) x0 x1 (ix3 r g l) = GroupNorm.dev (GroupNorm.grp x0 x1 r g) l := by
  rw [val_main_v14_apply, Ideal.subf_def, v1_eq, v13_eq]
  rfl

/-- The variance stage: the sum of the squared deviations (from a zero start) divided by 128. -/
theorem v12_eq (x0 : (⟨S8192x4096, .f32⟩ : BufTy).Contents (Elt Ideal)) (x1 : (⟨S4096x4096, .f32⟩ : BufTy).Contents (Elt Ideal))
    (r : Fin 8192) (g : Fin 32) (z : Fin 1) :
    val_main_v12 (F := Ideal) x0 x1 (ix3 r g z) = GroupNorm.var (GroupNorm.grp x0 x1 r g) := by
  rw [val_main_v12_apply, val_main_v10_apply, val_main_v9_apply, val_main_v11_apply, val_main_cst_2_apply,
    val_main_cst_1_apply, Ideal.hostDivf_def, Ideal.ofBits_def, Ideal.ofBits_def, Ideal.ofBits_zero_f32, zero_add]
  unfold GroupNorm.var
  refine congrArg (fun t => Ideal.div t GroupNorm.c128) (Finset.sum_congr rfl fun k _ => ?_)
  have hi : idx_main_v9 (idx_main_v10 (ix3 r g z)) k = ix3 r g k := funext fun a => Fin.ext (by
    match a with
    | ⟨0, _⟩ => rfl
    | ⟨1, _⟩ => rfl
    | ⟨2, _⟩ => rfl)
  rw [hi, val_main_v8_apply, Ideal.mulf_def, v7_eq]

/-- The square root of variance plus the offset. -/
theorem v17_eq (x0 : (⟨S8192x4096, .f32⟩ : BufTy).Contents (Elt Ideal)) (x1 : (⟨S4096x4096, .f32⟩ : BufTy).Contents (Elt Ideal))
    (r : Fin 8192) (g : Fin 32) (z : Fin 1) :
    val_main_v17 (F := Ideal) x0 x1 (ix3 r g z)
      = Ideal.sqrt (GroupNorm.var (GroupNorm.grp x0 x1 r g) + GroupNorm.eps) := by
  rw [val_main_v17_apply, val_main_v16_apply, val_main_v15_apply, val_main_cst_3_apply, Ideal.hostUnary_sqrt_def,
    Ideal.addf_def, Ideal.ofBits_def, v12_eq]

/-- The normalized entry before the bias: deviation over the square root. -/
theorem v19_eq (x0 : (⟨S8192x4096, .f32⟩ : BufTy).Contents (Elt Ideal)) (x1 : (⟨S4096x4096, .f32⟩ : BufTy).Contents (Elt Ideal))
    (r : Fin 8192) (g : Fin 32) (l : Fin 128) :
    val_main_v19 (F := Ideal) x0 x1 (ix3 r g l)
      = Ideal.div (GroupNorm.dev (GroupNorm.grp x0 x1 r g) l)
          (Ideal.sqrt (GroupNorm.var (GroupNorm.grp x0 x1 r g) + GroupNorm.eps)) := by
  rw [val_main_v19_apply, val_main_v18_apply, Ideal.hostDivf_def, v14_eq]
  have hi : idx_main_v18 (ix3 r g l) = ix3 r g (0 : Fin 1) := funext fun a => Fin.ext (by
    match a with
    | ⟨0, _⟩ => rfl
    | ⟨1, _⟩ => rfl
    | ⟨2, _⟩ => rfl)
  rw [hi, v17_eq]

/-- Back in the flat layout, column s of row r is entry s mod 128 of group s / 128. -/
theorem v20_eq (x0 : (⟨S8192x4096, .f32⟩ : BufTy).Contents (Elt Ideal)) (x1 : (⟨S4096x4096, .f32⟩ : BufTy).Contents (Elt Ideal))
    (r : Fin 8192) (s : Fin 4096) :
    val_main_v20 (F := Ideal) x0 x1 (ix2 r s)
      = Ideal.div (GroupNorm.dev (GroupNorm.grp x0 x1 r ⟨s.val / 128, by have := s.isLt; omega⟩) ⟨s.val % 128, Nat.mod_lt _ (by decide)⟩)
          (Ideal.sqrt (GroupNorm.var (GroupNorm.grp x0 x1 r ⟨s.val / 128, by have := s.isLt; omega⟩) + GroupNorm.eps)) := by
  rw [val_main_v20_apply]
  have hi : idx_main_v20 (ix2 r s)
      = ix3 r (⟨s.val / 128, by have := s.isLt; omega⟩ : Fin 32) (⟨s.val % 128, Nat.mod_lt _ (by decide)⟩ : Fin 128) :=
    funext fun a => Fin.ext (by
      match a with
      | ⟨0, _⟩ =>
        have hs := s.isLt
        show (r.val * 4096 + s.val) / 4096 = r.val
        omega
      | ⟨1, _⟩ =>
        have hs := s.isLt
        show (r.val * 4096 + s.val) / 128 % 32 = s.val / 128
        omega
      | ⟨2, _⟩ =>
        have hs := s.isLt
        show (r.val * 4096 + s.val) % 128 = s.val % 128
        omega)
  rw [hi, v19_eq]

/-- The bias broadcast over the rows. -/
theorem v22_eq (x2 : (⟨S4096, .f32⟩ : BufTy).Contents (Elt Ideal)) (r : Fin 8192) (s : Fin 4096) :
    val_main_v22 (F := Ideal) x2 (ix2 r s) = x2 (ix1 s) := by
  rw [val_main_v22_apply, val_main_v21_apply]
  refine congrArg x2 (funext fun a => Fin.ext (by
    match a with
    | ⟨0, _⟩ => rfl))

/-- The last stage at (r, s) is the reference's spelling of the normalized, biased, twice clipped entry. -/
theorem v25_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (r : Fin 8192) (s : Fin 4096) :
    val_main_v25 (F := Ideal) x0 x1 x2 (ix2 r s)
      = GroupNorm.normR (GroupNorm.grp x0 x1 r ⟨s.val / 128, by have := s.isLt; omega⟩) (x2 (ix1 s))
          ⟨s.val % 128, Nat.mod_lt _ (by decide)⟩ := by
  rw [val_main_v25_apply, val_main_call1_v4_apply, val_main_call1_v3_apply, val_main_cst_7_apply,
    val_main_call1_v2_apply, val_main_call1_v1_apply, val_main_call1_v0_apply, val_main_cst_6_apply,
    val_main_v24_apply, val_main_call0_v4_apply, val_main_call0_v3_apply, val_main_cst_5_apply,
    val_main_call0_v2_apply, val_main_call0_v1_apply, val_main_call0_v0_apply, val_main_cst_4_apply,
    val_main_v23_apply, v20_eq, v22_eq]
  rfl

/-- The last stage of the reference, at real inputs, is `GroupNorm.result`. -/
theorem ref_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal))
    (h0 : ∀ i, GroupNorm.IsReal (x0 i)) (h1 : ∀ i, GroupNorm.IsReal (x1 i)) :
    val_main_v25 (F := Ideal) x0 x1 x2 = GroupNorm.result x0 x1 x2 := by
  funext i
  obtain ⟨r, s, rfl⟩ : ∃ (r : Fin 8192) (s : Fin 4096), i = ix2 r s := ⟨i 0, i 1, eq_ix2 i⟩
  rw [v25_eq]
  refine (GroupNorm.normR_eq_normK _ (fun l => ?_) _ _).trans ?_
  · unfold GroupNorm.grp
    exact GroupNorm.lin_isReal x0 x1 h0 h1 _ _
  · rfl

end Cert.ReferenceIdeal.RefValue

end
-- ==== Proof.Finite.lean ====
/-
  From the precondition "every input is finite" to "every input entry is a real number".
-/
import proofs.«120071_j88940182766069_1_alg».proof.Pre_finite_inputs
import proofs.«120071_j88940182766069_1_alg».proof.Proof.Gen.Pre_finite_inputs
import proofs.«120071_j88940182766069_1_alg».proof.Proof.GroupNormLaws
import Idealize.ShloMosaic.Lib.ReduceAll
import Idealize.ShloMosaic.Lib.IdealHost

noncomputable section

namespace Cert.FiniteInputs

open Idealize.ShloMosaic Idealize.ShloMosaic.ValueIdx Cert.Pre_finite_inputs

/-- The rank-0 shape has exactly one index. -/
instance subsingleton_scalar_idx : Subsingleton S_.Idx := ⟨fun _ _ => funext fun d => d.elim0⟩

/-- The f32 word 0x7F800000 encodes +∞. -/
theorem inf_word_eq_top : Ideal.ofBits .f32 0x7F800000#32 = (⊤ : EReal) := by
  simp [Ideal.ofBits, Ideal.ieee]

/-- An extended real whose absolute value max e (-e) is strictly below ⊤ is a real number:
    at ⊥ the absolute value is ⊤, at ⊤ it is ⊤, and ⊤ < ⊤ is false. -/
theorem isReal_of_abs_lt_top (e : EReal) (h : Ideal.cmp .olt (max e (-e)) ⊤ = 1#1) : GroupNorm.IsReal e := by
  induction e using EReal.rec with
  | bot => simp [Ideal.cmp] at h
  | coe r => exact ⟨r, rfl⟩
  | top => simp [Ideal.cmp] at h

/-- One entry of the compared array: |x i| < +∞ (as the word 1) gives that x i is real. -/
theorem isReal_of_entry {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    GroupNorm.IsReal (x i) := by
  rw [cmpf_apply, broadcastInDim_scalar_apply, constant_apply, inf_word_eq_top] at h
  exact isReal_of_abs_lt_top (x i) h

/-- If the printed predicate (|x| < +inf on every entry of each of the three arrays) is all ones, every entry of
    every array is a real number. -/
theorem real_of_pre (x0 : FVec Ideal S8192x4096 .f32) (x1 : FVec Ideal S4096x4096 .f32) (x2 : FVec Ideal S4096 .f32)
    (h : Cert.Pre_finite_inputs.fn (F := Ideal) x0 x1 x2 = fun _ => 1#1) :
    (∀ i, GroupNorm.IsReal (x0 i)) ∧ (∀ i, GroupNorm.IsReal (x1 i)) ∧ (∀ i, GroupNorm.IsReal (x2 i)) := by
  have h' := congrFun h ValueIdx.ix0
  dsimp only [Cert.Pre_finite_inputs.fn] at h'
  obtain ⟨h01, h2⟩ := IntOp.andi_eq_one.1 h'
  obtain ⟨h0, h1⟩ := IntOp.andi_eq_one.1 h01
  refine ⟨fun i => ?_, fun i => ?_, fun i => ?_⟩
  · exact isReal_of_entry x0 _ i (Host.reduce_andi_all _ _ _ _ _ h0 i)
  · exact isReal_of_entry x1 _ i (Host.reduce_andi_all _ _ _ _ _ h1 i)
  · exact isReal_of_entry x2 _ i (Host.reduce_andi_all _ _ _ _ _ h2 i)

end Cert.FiniteInputs

end
-- ==== Proof.lean ====
/-
  A linear map followed by group normalization, a bias and a clip to [-2, 2]: the tiled kernel against the plain reference,
  over the extended reals.

  Both programs compute, for x [8192, 4096], w [4096, 4096] and b [4096],
    y[r, s] = Σₖ x[r, k] · w[s, k],   then on each group of 128 consecutive columns of a row
    out[r, s] = clip ((y[r, s] - mean) · (var + eps)^(-1/2) + b[s]),
  with mean and (biased) variance taken over the group. The kernel accumulates y block by block over four chunks of the
  reduction axis, which is the same sum regrouped, and multiplies by the reciprocal square root where the reference divides
  by the square root and clips twice. On finite inputs y is real, so var + eps is a positive real and the two spellings
  agree; clipping twice to the same bounds is clipping once.

  The frames of the two kernel programs are the generated ones; the reference's frame is its generated run with the
  result dropped; the ideal pass rewrote nothing, so there is nothing to preserve.
-/
import proofs.«120071_j88940182766069_1_alg».proof.Defs
import proofs.«120071_j88940182766069_1_alg».proof.Proof.Gen.Kernel
import proofs.«120071_j88940182766069_1_alg».proof.Proof.Gen.Kernel.Skeleton
import proofs.«120071_j88940182766069_1_alg».proof.Proof.Gen.Kernel.Launch
import proofs.«120071_j88940182766069_1_alg».proof.Proof.Gen.Kernel.Points
import proofs.«120071_j88940182766069_1_alg».proof.Proof.Gen.Kernel.Frame
import proofs.«120071_j88940182766069_1_alg».proof.Proof.Gen.KernelIdeal
import proofs.«120071_j88940182766069_1_alg».proof.Proof.Gen.KernelIdeal.Skeleton
import proofs.«120071_j88940182766069_1_alg».proof.Proof.Gen.KernelIdeal.Launch
import proofs.«120071_j88940182766069_1_alg».proof.Proof.Gen.KernelIdeal.Points
import proofs.«120071_j88940182766069_1_alg».proof.Proof.Gen.KernelIdeal.Frame
import proofs.«120071_j88940182766069_1_alg».proof.Proof.Gen.ReferenceIdeal
import proofs.«120071_j88940182766069_1_alg».proof.Proof.Gen.Pre_finite_inputs
import proofs.«120071_j88940182766069_1_alg».proof.Proof.Gen.KernelIdeal.Value
import proofs.«120071_j88940182766069_1_alg».proof.Proof.Gen.ReferenceIdeal.Run
import proofs.«120071_j88940182766069_1_alg».proof.Proof.Gen.ReferenceIdeal.Read
import proofs.«120071_j88940182766069_1_alg».proof.Proof.KernelValue
import proofs.«120071_j88940182766069_1_alg».proof.Proof.RefValue
import proofs.«120071_j88940182766069_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's result array of the (agreeing, finite) arguments: the kernel by its
    accumulated blocks, the reference stage by stage, where finiteness makes the linear map real and so joins the
    reciprocal-square-root and the square-root spellings. -/
theorem algebraic : Cert.algebraic_KernelIdeal_ReferenceIdeal := by
  intro m ρ m' ρ' hpre hagree
  refine ⟨fun c => GroupNorm.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, -⟩ := Cert.FiniteInputs.real_of_pre _ _ _ (hpre c)
  rw [Cert.ReferenceIdeal.Read.val_main_v25_eq, (hagree c).1, (hagree c).2.1, (hagree c).2.2]
  exact Cert.ReferenceIdeal.RefValue.ref_eq _ _ _ r0 r1

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
